-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1024x2048 : Shape := ⟨2, ![1024, 2048]⟩
abbrev S8192x2048 : Shape := ⟨2, ![8192, 2048]⟩
abbrev S512x2048 : Shape := ⟨2, ![512, 2048]⟩
abbrev S3072x2048 : Shape := ⟨2, ![3072, 2048]⟩
abbrev S6144x2048 : Shape := ⟨2, ![6144, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S6144x2048 : S_.BroadcastsInDim S6144x2048 (![] : Fin 0 → Fin S6144x2048.rank)
  reducesTo_S6144x2048_S_d0_1 : S6144x2048.ReducesTo [0, 1] S_

variable [Facts]

def fn_part2 {F : FTy → Type} [FloatOps F] (main_arg7 : FVec F S1024x2048 .f32) (main_arg8 : FVec F S2048x2048 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  main_v43

def fn_part1 {F : FTy → Type} [FloatOps F] (main_arg4 : FVec F S512x2048 .f32) (main_arg5 : FVec F S3072x2048 .f32) (main_arg6 : FVec F S6144x2048 .f32) (main_arg7 : FVec F S1024x2048 .f32) (main_arg8 : FVec F S2048x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S3072x2048 .f32 := Host.absf main_arg5
  let main_cst_8 : FVec F S_ .f32 := constant S_ .f32 0x7F800000#32
  let main_v25 : FVec F S3072x2048 .f32 := broadcastInDim S3072x2048 ![] bcast_S_S3072x2048 main_cst_8
  let main_v26 : IVec S3072x2048 1 := cmpf .olt main_v24 main_v25
  let main_c_9 : IVec S_ 1 := constantI S_ 1 1#1
  let main_v27 : IVec S_ 1 := (fun x v => Host.reduce IntOp.andi x v reducesTo_S3072x2048_S_d0_1 h_S_) main_v26 main_c_9
  let main_v28 : IVec S_ 1 := andi main_v23 main_v27
  let main_v29 : FVec F S6144x2048 .f32 := Host.absf main_arg6
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg7 main_arg8 main_v33

def fn {F : FTy → Type} [FloatOps F] (main_arg0 : FVec F S4096x2048 .f32) (main_arg1 : FVec F S2048x2048 .f32) (main_arg2 : FVec F S1024x2048 .f32) (main_arg3 : FVec F S8192x2048 .f32) (main_arg4 : FVec F S512x2048 .f32) (main_arg5 : FVec F S3072x2048 .f32) (main_arg6 : FVec F S6144x2048 .f32) (main_arg7 : FVec F S1024x2048 .f32) (main_arg8 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_v13 main_v16
-- ==== Kernel.lean ====
abbrev S4096x2048 : Shape := ⟨2, ![4096, 2048]⟩
abbrev S2048x2048 : Shape := ⟨2, ![2048, 2048]⟩
abbrev S1024x2048 : Shape := ⟨2, ![1024, 2048]⟩
abbrev S8192x2048 : Shape := ⟨2, ![8192, 2048]⟩
abbrev S512x2048 : Shape := ⟨2, ![512, 2048]⟩
abbrev S3072x2048 : Shape := ⟨2, ![3072, 2048]⟩
abbrev S6144x2048 : Shape := ⟨2, ![6144, 2048]⟩
abbrev S26112x2048 : Shape := ⟨2, ![26112, 2048]⟩

abbrev nBuf : Space → Nat
  | .hbm => 12
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1024x2048, .f32⟩
  | .hbm, ⟨3, _⟩ => ⟨S8192x2048, .f32⟩
  | .hbm, ⟨4, _⟩ => ⟨S512x2048, .f32⟩
  | .hbm, ⟨5, _⟩ => ⟨S3072x2048, .f32⟩
  | .hbm, ⟨6, _⟩ => ⟨S6144x2048, .f32⟩
  | .hbm, ⟨7, _⟩ => ⟨S1024x2048, .f32⟩
  | .hbm, ⟨8, _⟩ => ⟨S2048x2048, .f32⟩
  | .hbm, ⟨9, _⟩ => ⟨S26112x2048, .f32⟩
  | .hbm, ⟨10, _⟩ => ⟨S2048x2048, .bf16⟩
  | .hbm, ⟨11, _⟩ => ⟨S26112x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S4096x2048_S2048x2048_S1024x2048_S8192x2048_S512x2048_S3072x2048_S6144x2048_S1024x2048_S26112x2048_d0 : Shape.Concatenates [S4096x2048, S2048x2048, S1024x2048, S8192x2048, S512x2048, S3072x2048, S6144x2048, S1024x2048] S26112x2048 0
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S26112x2048.size a
  hwx0_0 : ∀ i : grid0.Coords, EltTy.bits .f32 = 32 ∨ (Rect.block (s := S26112x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S26112x2048.size a
  hwx0_2 : ∀ i : grid0.Coords, EltTy.bits .f32 = 32 ∨ (Rect.block (s := S26112x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S1024x2048 : Shape := ⟨2, ![1024, 2048]⟩
abbrev S8192x2048 : Shape := ⟨2, ![8192, 2048]⟩
abbrev S512x2048 : Shape := ⟨2, ![512, 2048]⟩
abbrev S3072x2048 : Shape := ⟨2, ![3072, 2048]⟩
abbrev S6144x2048 : Shape := ⟨2, ![6144, 2048]⟩
abbrev S26112x2048 : Shape := ⟨2, ![26112, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1024x2048, .f32⟩
  | .hbm, ⟨3, _⟩ => ⟨S8192x2048, .f32⟩
  | .hbm, ⟨4, _⟩ => ⟨S512x2048, .f32⟩
  | .hbm, ⟨5, _⟩ => ⟨S3072x2048, .f32⟩
  | .hbm, ⟨6, _⟩ => ⟨S6144x2048, .f32⟩
  | .hbm, ⟨7, _⟩ => ⟨S1024x2048, .f32⟩
  | .hbm, ⟨8, _⟩ => ⟨S2048x2048, .f32⟩
  | .hbm, ⟨9, _⟩ => ⟨S26112x2048, .f32⟩
  | .hbm, ⟨10, _⟩ => ⟨S26112x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩

abbrev nD : Nat := 1
abbrev τ : Topo := Topo.v7x

variable {F : FTy → Type} [FloatOps F]

class Facts₀ : Prop where
  concatenates_S4096x2048_S2048x2048_S1024x2048_S8192x2048_S512x2048_S3072x2048_S6144x2048_S1024x2048_S26112x2048_d0 : Shape.Concatenates [S4096x2048, S2048x2048, S1024x2048, S8192x2048, S512x2048, S3072x2048, S6144x2048, S1024x2048] S26112x2048 0
  dot_S26112x2048_S2048x2048_S26112x2048_1_0_0_1_n_n_wf : DotDims.WF S26112x2048 S2048x2048 S26112x2048 [1] [0] [0] [1] [] []

variable [Facts₀]

def dot_S26112x2048_S2048x2048_S26112x2048_1_0_0_1_n_n : DotDims S26112x2048 S2048x2048 S26112x2048 where
  lhsContracting := [1]
  rhsContracting := [0]
  lhsNonContracting := [0]
  rhsNonContracting := [1]
  lhsBatch := []
  rhsBatch := []
  wf := dot_S26112x2048_S2048x2048_S26112x2048_1_0_0_1_n_n_wf

class Facts : Prop extends Facts₀ where

variable [Facts]
-- ==== Proof.KernelFrame.lean ====
/-
  The frame of the program: its host prefix (the row-wise join of the eight groups, the change of
  format of the shared factor), then the one launched region on a grid of 51 points.
  At point t the body reads the t-th block of 512 rows of the joined array and the whole shared
  factor and stores their matrix product over the whole output block; nothing else is kept between
  points.  So after every point each input buffer still holds its block and the output buffer holds
  that product, and the run ends with the nine arguments as they were and the result array at what
  the points wrote back.
-/
import proofs.«109819_j91036126806575_1_alg».proof.Proof.Gen.Kernel.Launch
import proofs.«109819_j91036126806575_1_alg».proof.Proof.Gen.Kernel.Skeleton
import proofs.«109819_j91036126806575_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the two host
    operations (the joined array in `main_v0`, the re-formatted factor in `main_v1`). -/
abbrev V (c : Dev nD) (b : Ref sig .tc) : Buf (Elt F) ((c : Thread nD τ).loc b) :=
  StableHlo.after hostOps0 (fun b => m (c, b)) b

/-- Neither host operation allocates a buffer. -/
theorem hostOps0_fresh : (hostOps0 : List (HloOp τ sig (Elt F))).Forall fun op => op.fresh = ∅ := by
  simp only [List.Forall]; repeat' constructor

/-- The program is its host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host prefix writes only `main_v0` and `main_v1`: argument 0 reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 1 reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 2 reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 3 reaches the region as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 4 reaches the region as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 5 reaches the region as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 6 reaches the region as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 7 reaches the region as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 8 reaches the region as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's buffer holds its block at every point, whatever the proof data, as long as the
    body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the shared factor's window, fetched once: its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From a run to the frame -/

/-- A run that ends with every array of the region at what the proof data compute and every other
    buffer as the region found it leaves the nine arguments as launched: none of them is an array of
    the region, and the host prefix writes none. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body -/

/-- The whole 512 × 2048 block, and the whole 2048 × 2048 factor. -/
abbrev rA : Rect S512x2048 := Rect.unit (s := S512x2048) ![0, 0] S512x2048.size inb_S512x2048_S512x2048_0_0
abbrev rB : Rect S2048x2048 := Rect.unit (s := S2048x2048) ![0, 0] S2048x2048.size inb_S2048x2048_S2048x2048_0_0

/-- What the body leaves in the output buffer: its one store, of the product of the two loaded blocks. -/
def prod (x0 : Vec F S512x2048 .f32) (x1 : Vec F S2048x2048 .bf16) : Vec F S512x2048 .f32 :=
  View.canon [⟨rA, k0_pay1 (View.ld x0 rA) (View.ld x1 rB)⟩]

/-- That store covers the buffer. -/
theorem cover (p0 : Vec F S512x2048 .f32) (y : S512x2048.Idx) :
    ∃ pc ∈ ([⟨rA, p0⟩] : List (View.Piece (Elt F) S512x2048 .f32)), y ∈ pc.1.set :=
  View.cover_of_tiled [⟨rA, p0⟩] S512x2048.size (by rfl) y

set_option maxHeartbeats 1000000 in
/-- The body on whole buffers: the two inputs read and left as they were, the output (whatever it held)
    left at the product. -/
theorem sound_kernel (c : Dev nD) (E : Set ℕ) (i : grid0.Coords)
    (arg1 : Memref sig .tc .vmem S512x2048 .f32) (harg1 : arg1.IsWhole)
    (arg2 : Memref sig .tc .vmem S2048x2048 .bf16) (harg2 : arg2.IsWhole)
    (arg3 : Memref sig .tc .vmem S512x2048 .f32) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The proof data -/

/-- On core `c`: the arrays as the region finds them; after the body at point `t` each input buffer at its
    block and the output buffer at the product of the two blocks; nothing kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = prod (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates with the region's arrays at what the points wrote back and
    every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and leaves its nine arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Fr

end
-- ==== Proof.KernelIdealFrame.lean ====
/-
  The frame of the program: its host prefix (the row-wise join of the eight groups, the change of
  format of the shared factor), then the one launched region on a grid of 51 points.
  At point t the body reads the t-th block of 512 rows of the joined array and the whole shared
  factor and stores their matrix product over the whole output block; nothing else is kept between
  points.  So after every point each input buffer still holds its block and the output buffer holds
  that product, and the run ends with the nine arguments as they were and the result array at what
  the points wrote back.
-/
import proofs.«109819_j91036126806575_1_alg».proof.Proof.Gen.KernelIdeal.Launch
import proofs.«109819_j91036126806575_1_alg».proof.Proof.Gen.KernelIdeal.Skeleton
import proofs.«109819_j91036126806575_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the two host
    operations (the joined array in `main_v0`, the re-formatted factor in `main_v1`). -/
abbrev V (c : Dev nD) (b : Ref sig .tc) : Buf (Elt F) ((c : Thread nD τ).loc b) :=
  StableHlo.after hostOps0 (fun b => m (c, b)) b

/-- Neither host operation allocates a buffer. -/
theorem hostOps0_fresh : (hostOps0 : List (HloOp τ sig (Elt F))).Forall fun op => op.fresh = ∅ := by
  simp only [List.Forall]; repeat' constructor

/-- The program is its host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host prefix writes only `main_v0` and `main_v1`: argument 0 reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 1 reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 2 reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 3 reaches the region as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 4 reaches the region as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 5 reaches the region as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 6 reaches the region as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 7 reaches the region as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The host prefix writes only `main_v0` and `main_v1`: argument 8 reaches the region as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's buffer holds its block at every point, whatever the proof data, as long as the
    body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the shared factor's window, fetched once: its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From a run to the frame -/

/-- A run that ends with every array of the region at what the proof data compute and every other
    buffer as the region found it leaves the nine arguments as launched: none of them is an array of
    the region, and the host prefix writes none. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body -/

/-- The whole 512 × 2048 block, and the whole 2048 × 2048 factor. -/
abbrev rA : Rect S512x2048 := Rect.unit (s := S512x2048) ![0, 0] S512x2048.size inb_S512x2048_S512x2048_0_0
abbrev rB : Rect S2048x2048 := Rect.unit (s := S2048x2048) ![0, 0] S2048x2048.size inb_S2048x2048_S2048x2048_0_0

/-- What the body leaves in the output buffer: its one store, of the product of the two loaded blocks. -/
def prod (x0 : Vec F S512x2048 .f32) (x1 : Vec F S2048x2048 .bf16) : Vec F S512x2048 .f32 :=
  View.canon [⟨rA, k0_pay1 (View.ld x0 rA) (View.ld x1 rB)⟩]

/-- That store covers the buffer. -/
theorem cover (p0 : Vec F S512x2048 .f32) (y : S512x2048.Idx) :
    ∃ pc ∈ ([⟨rA, p0⟩] : List (View.Piece (Elt F) S512x2048 .f32)), y ∈ pc.1.set :=
  View.cover_of_tiled [⟨rA, p0⟩] S512x2048.size (by rfl) y

set_option maxHeartbeats 1000000 in
/-- The body on whole buffers: the two inputs read and left as they were, the output (whatever it held)
    left at the product. -/
theorem sound_kernel (c : Dev nD) (E : Set ℕ) (i : grid0.Coords)
    (arg1 : Memref sig .tc .vmem S512x2048 .f32) (harg1 : arg1.IsWhole)
    (arg2 : Memref sig .tc .vmem S2048x2048 .bf16) (harg2 : arg2.IsWhole)
    (arg3 : Memref sig .tc .vmem S512x2048 .f32) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The proof data -/

/-- On core `c`: the arrays as the region finds them; after the body at point `t` each input buffer at its
    block and the output buffer at the product of the two blocks; nothing kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = prod (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates with the region's arrays at what the points wrote back and
    every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and leaves its nine arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Fr

end
-- ==== Proof.RowBlocks.lean ====
/-
  The value of the kernel's result, at the extended reals.
  The result array is filled by 51 grid points; point t writes rows 512·t … 512·t + 511.  Its block is the
  matrix product of the t-th block of 512 rows of the joined array X with the whole factor B (the change of
  format on both operands is the identity here, and the product starts from a zero accumulator), so entry
  (r, n) of the block is  Σ_k X[512·t + r, k] · B[k, n].  These are the rows of ONE array-wide function
      P X B (i, n) = Σ_k X[i, k] · B[k, n],
  and the 51 blocks tile the array, so the result array ends at P X B, with X the join of the eight groups
  and B the shared factor as launched.
-/
import proofs.«109819_j91036126806575_1_alg».proof.Proof.KernelIdealFrame
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.KernelIdeal.RowBlocks

open Cert.KernelIdeal Cert.KernelIdeal.Gen Cert.KernelIdeal.Fr
open Idealize.ShloMosaic Idealize.ShloMosaic.TcCoe Idealize.SL.Sem Idealize.ShloMosaic.StableHlo
open Idealize.ShloMosaic.Pipeline (Dat)

/-! ## The array-wide product -/

/-- Entry (i₀, k) of the joined array, as an index. -/
abbrev rowIx (i : S26112x2048.Idx) (k : Fin 2048) : S26112x2048.Idx := fun a => match a with
  | ⟨0, _⟩ => ⟨(i 0).val, (i 0).isLt⟩
  | ⟨1, _⟩ => ⟨k.val, k.isLt⟩
/-- Entry (k, i₁) of the factor, as an index. -/
abbrev colIx (i : S26112x2048.Idx) (k : Fin 2048) : S2048x2048.Idx := fun a => match a with
  | ⟨0, _⟩ => ⟨k.val, k.isLt⟩
  | ⟨1, _⟩ => ⟨(i 1).val, (i 1).isLt⟩

/-- The matrix product X · B, entry by entry: the sum over the 2048 shared coordinates. -/
def P (X : S26112x2048.Idx → EReal) (B : S2048x2048.Idx → EReal) : S26112x2048.Idx → EReal :=
  fun i => ∑ k : Fin 2048, X (rowIx i k) * B (colIx i k)

/-! ## One block's product at an entry -/

theorem lhs_ax0 (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_ax1 (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q
theorem rhs_ax0 (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q
theorem rhs_ax1 (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- Entry (j₀, k) of a 512-row block, and entry (k, j₁) of the factor, for an entry j of the block's product. -/
abbrev blkRow (j : S512x2048.Idx) (k : Fin 2048) : S512x2048.Idx := fun a => match a with
  | ⟨0, _⟩ => ⟨(j 0).val, (j 0).isLt⟩
  | ⟨1, _⟩ => ⟨k.val, k.isLt⟩
abbrev blkCol (j : S512x2048.Idx) (k : Fin 2048) : S2048x2048.Idx := fun a => match a with
  | ⟨0, _⟩ => ⟨k.val, k.isLt⟩
  | ⟨1, _⟩ => ⟨(j 1).val, (j 1).isLt⟩

/-- What the body stores, at an entry: the format changes and the re-layouts are identities, the product into the
    zero accumulator is the plain sum over the shared coordinate. -/
theorem pay_apply (x0 : FVec Ideal S512x2048 .f32) (x1 : FVec Ideal S2048x2048 .bf16) (j : S512x2048.Idx) :
    k0_pay1 (F := Ideal) x0 x1 j = ∑ k : Fin 2048, x0 (blkRow j k) * x1 (blkCol j k) := by
  unfold k0_pay1
  simp only [matmul]
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx j ((ValueIdx.contrEquiv1 dot_S512x2048_S2048x2048_S512x2048_1_0_0_1_n_n 2048 rfl rfl).symm k) = blkRow j k := funext fun a => Fin.ext (by
    match a with
    | ⟨0, _⟩ => exact lhs_ax0 _ _
    | ⟨1, _⟩ => exact (lhs_ax1 _ _).trans hk)
  have er : dot_S512x2048_S2048x2048_S512x2048_1_0_0_1_n_n.rhsIdx j ((ValueIdx.contrEquiv1 dot_S512x2048_S2048x2048_S512x2048_1_0_0_1_n_n 2048 rfl rfl).symm k) = blkCol j k := funext fun a => Fin.ext (by
    match a with
    | ⟨0, _⟩ => exact (rhs_ax0 _ _).trans hk
    | ⟨1, _⟩ => exact rhs_ax1 _ _)
  rw [el, er, shapeCast_self, shapeCast_self]
  rfl

/-! ## The arrays the region finds -/

variable (m : (ℓ : Loc nD τ sig) → Buf (Elt Ideal) ℓ) (ρ : Dev nD → PrngReg)

/-- The joined array and the factor as the region finds them, at their literal types. -/
abbrev Xarr (c : Dev nD) : S26112x2048.Idx → EReal := V m c main_v0
abbrev Barr (c : Dev nD) : S2048x2048.Idx → EReal := V m c main_v1

/-- The joined array is the row-wise join of the eight groups as launched. -/
theorem Xarr_eq (c : Dev nD) : Xarr m c = concatenate S26112x2048 0 [⟨S4096x2048, m ((c.tc : Thread nD τ).loc main_arg0)⟩, ⟨S2048x2048, m ((c.tc : Thread nD τ).loc main_arg1)⟩, ⟨S1024x2048, m ((c.tc : Thread nD τ).loc main_arg2)⟩, ⟨S8192x2048, m ((c.tc : Thread nD τ).loc main_arg3)⟩, ⟨S512x2048, m ((c.tc : Thread nD τ).loc main_arg4)⟩, ⟨S3072x2048, m ((c.tc : Thread nD τ).loc main_arg5)⟩, ⟨S6144x2048, m ((c.tc : Thread nD τ).loc main_arg6)⟩, ⟨S1024x2048, m ((c.tc : Thread nD τ).loc main_arg7)⟩] concatenates_S4096x2048_S2048x2048_S1024x2048_S8192x2048_S512x2048_S3072x2048_S6144x2048_S1024x2048_S26112x2048_d0 := by
  dsimp only [Xarr, V, hostOps0]; after_results; rfl

/-- The factor the region reads is the shared factor as launched (the change of format is the identity). -/
theorem Barr_eq (c : Dev nD) : Barr m c = m ((c.tc : Thread nD τ).loc main_arg8) := by
  dsimp only [Barr, V, hostOps0]; after_results; rfl

/-! ## What a point writes back -/

theorem hz : (![0, 0] : Fin 2 → Nat) = fun _ => 0 := funext fun a => by fin_cases a <;> rfl

/-- The printed index maps over the grid: the row-block window and the output window sit on block row t,
    the factor's window on its one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 50 :=
  (by decide +kernel : ∀ t : Fin grid0.N, _)

/-- Every block row is some point's. -/
theorem idx_onto : ∀ q0 : Fin 51, ∃ t : Fin cfg0.N, win0_2.index t = ![q0.val, 0] :=
  (by decide +kernel : ∀ q0 : Fin 51, ∃ t : Fin grid0.N, win0_2.index t = ![q0.val, 0])

/-- Point t writes back block t of the array-wide product. -/
theorem flushed_eq (c : Dev nD) (t : Fin cfg0.N) :
    (dats m 0 c).flushed 2 t = ((cfg0.win 2).blk t).view.read (Elt Ideal) (P (Xarr m c) (Barr m c)) := by
  show (cfg0.win 2).cut (grid0.coords t) ((dats m 0 c).after 2 t) = _
  rw [after0_2]
  unfold Fr.prod
  rw [View.canon_unit_zero hz]
  simp only [View.ld_unit_zero (S := S512x2048) hz, View.ld_unit_zero (S := S2048x2048) hz]
  obtain ⟨e0, e1, e2, e3, e4, e5⟩ := idx_facts t
  funext j
  show k0_pay1 (F := Ideal) (iblk m c 0 t) (iblk m c 1 t) j = P (Xarr m c) (Barr m c) (((cfg0.win 2).blk t).view.emb j)
  refine (pay_apply (iblk m c 0 t) (iblk m c 1 t) j).trans ?_
  unfold P
  refine Finset.sum_congr rfl fun k _ => ?_
  show Xarr m c (((cfg0.win 0).blk t).view.emb (blkRow j k)) * Barr m c (((cfg0.win 1).blk t).view.emb (blkCol j k))
    = Xarr m c (rowIx (((cfg0.win 2).blk t).view.emb j) k) * Barr m c (colIx (((cfg0.win 2).blk t).view.emb j) k)
  have h0 : ((cfg0.win 0).blk t).view.emb (blkRow j k) = rowIx (((cfg0.win 2).blk t).view.emb j) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * k.val = k.val; omega
  have h1 : ((cfg0.win 1).blk t).view.emb (blkCol j k) = colIx (((cfg0.win 2).blk t).view.emb j) k := by
    funext a; apply Fin.ext
    match a with
    | ⟨0, _⟩ => show win0_1.index t (0 : Fin 2) * 2048 + 1 * k.val = k.val; omega
    | ⟨1, _⟩ => show win0_1.index t (1 : Fin 2) * 2048 + 1 * (j 1).val = win0_2.index t (1 : Fin 2) * 2048 + 1 * (j 1).val; omega
  rw [h0, h1]

/-! ## The blocks tile the array -/

theorem mem_blk (t : Fin cfg0.N) (i : S26112x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v2).slice (win0_2.rect t)).set ↔ _
  rw [View.set_slice_whole, Rect.mem_set_unit]
  exact Iff.rfl

/-- Row i₀ lies in block row i₀ / 512. -/
theorem covered (i : S26112x2048.Idx) :
    ∃ t : Fin cfg0.N, (cfg0.win 2).flush t = true ∧ i ∈ ((cfg0.win 2).blk t).view.set := by
  have hi0 : (i 0).val < 26112 := (i 0).isLt
  have hi1 : (i 1).val < 2048 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The result array after the run is the array-wide product. -/
theorem final (c : Dev nD) : (dats m 0 c).arrAt 2 cfg0.N = P (Xarr m c) (Barr m c) :=
  (dats m 0 c).arrAt_eq_of_cover 2 (P (Xarr m c) (Barr m c)) (fun t _ => flushed_eq m c t) (covered)

/-! ## The run, read -/

/-- Every weakly fair execution ends with the result array at the product of the joined groups with the shared
    factor, and the nine arguments as launched. -/
theorem run : θ_run defs (onTc (τ := τ) (main (F := Ideal))) ⟨m, fun _ => 0, ρ⟩ fun r => ∀ c : Dev nD,
      r.2.mem ((c.tc : Thread nD τ).loc main_v2) = P (concatenate S26112x2048 0 [⟨S4096x2048, m ((c.tc : Thread nD τ).loc main_arg0)⟩, ⟨S2048x2048, m ((c.tc : Thread nD τ).loc main_arg1)⟩, ⟨S1024x2048, m ((c.tc : Thread nD τ).loc main_arg2)⟩, ⟨S8192x2048, m ((c.tc : Thread nD τ).loc main_arg3)⟩, ⟨S512x2048, m ((c.tc : Thread nD τ).loc main_arg4)⟩, ⟨S3072x2048, m ((c.tc : Thread nD τ).loc main_arg5)⟩, ⟨S6144x2048, m ((c.tc : Thread nD τ).loc main_arg6)⟩, ⟨S1024x2048, m ((c.tc : Thread nD τ).loc main_arg7)⟩] concatenates_S4096x2048_S2048x2048_S1024x2048_S8192x2048_S512x2048_S3072x2048_S6144x2048_S1024x2048_S26112x2048_d0) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(((h c).1 2).trans (final m c)).trans (by rw [Xarr_eq, Barr_eq]),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.RowBlocks

end
-- ==== Proof.RefSide.lean ====
/-
  The reference's result, at the extended reals: one contraction of the joined array with the shared factor
  over their 2048 shared coordinates — entry (i, n) is Σ_k X[i, k] · B[k, n], the array-wide product that the
  kernel's 51 row blocks tile.
-/
import proofs.«109819_j91036126806575_1_alg».proof.Proof.Gen.ReferenceIdeal.Run
import proofs.«109819_j91036126806575_1_alg».proof.Proof.Gen.ReferenceIdeal.Read
import proofs.«109819_j91036126806575_1_alg».proof.Proof.RowBlocks

noncomputable section

namespace Cert.ReferenceIdeal.RefValue

open Cert.ReferenceIdeal Cert.ReferenceIdeal.Gen Cert.ReferenceIdeal.Read
open Idealize.ShloMosaic Idealize.ShloMosaic.TcCoe Idealize.SL.Sem

/-- The contraction of the join with the factor is their product, entry by entry. -/
theorem contraction_eq (x0 : (⟨S4096x2048, .f32⟩ : BufTy).Contents (Elt Ideal)) (x1 : (⟨S2048x2048, .f32⟩ : BufTy).Contents (Elt Ideal)) (x2 : (⟨S1024x2048, .f32⟩ : BufTy).Contents (Elt Ideal)) (x3 : (⟨S8192x2048, .f32⟩ : BufTy).Contents (Elt Ideal)) (x4 : (⟨S512x2048, .f32⟩ : BufTy).Contents (Elt Ideal)) (x5 : (⟨S3072x2048, .f32⟩ : BufTy).Contents (Elt Ideal)) (x6 : (⟨S6144x2048, .f32⟩ : BufTy).Contents (Elt Ideal)) (x7 : (⟨S1024x2048, .f32⟩ : BufTy).Contents (Elt Ideal)) (x8 : (⟨S2048x2048, .f32⟩ : BufTy).Contents (Elt Ideal)) :
    val_main_v1 (F := Ideal) x0 x1 x2 x3 x4 x5 x6 x7 x8 = Cert.KernelIdeal.RowBlocks.P (val_main_v0 (F := Ideal) x0 x1 x2 x3 x4 x5 x6 x7) x8 := by
  funext i
  rw [val_main_v1_apply]
  rfl

end Cert.ReferenceIdeal.RefValue

end
-- ==== Proof.lean ====
/-
  The kernel joins eight row groups into one 26112 × 2048 array, re-formats the shared 2048 × 2048 factor, and
  multiplies the join by the factor 512 rows at a time on a grid of 51 points; the reference joins the same
  groups and contracts the join with the factor in one operation.  At the extended reals the changes of format
  are identities and a product into a zero accumulator is the plain sum, so both results are
      out[i, n] = Σ_k X[i, k] · B[k, n],   X the join, B the factor:
  the kernel's 51 blocks are the consecutive 512-row bands of that one array, and they tile it.  Only
  reordering-free identities are used, so finiteness of the inputs is never needed.
  The three frames: each kernel program runs its host prefix and its region to the end and writes only the
  join, the re-formatted factor and the result; the reference is two host operations.
-/
import proofs.«109819_j91036126806575_1_alg».proof.Defs
import proofs.«109819_j91036126806575_1_alg».proof.Proof.Gen.Kernel
import proofs.«109819_j91036126806575_1_alg».proof.Proof.Gen.KernelIdeal
import proofs.«109819_j91036126806575_1_alg».proof.Proof.Gen.ReferenceIdeal
import proofs.«109819_j91036126806575_1_alg».proof.Proof.Gen.Pre_finite_inputs
import proofs.«109819_j91036126806575_1_alg».proof.Proof.KernelFrame
import proofs.«109819_j91036126806575_1_alg».proof.Proof.KernelIdealFrame
import proofs.«109819_j91036126806575_1_alg».proof.Proof.RowBlocks
import proofs.«109819_j91036126806575_1_alg».proof.Proof.RefSide

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at the product of the joined groups with the factor. -/
theorem algebraic : Cert.algebraic_KernelIdeal_ReferenceIdeal := by
  intro m ρ m' ρ' _ hagree
  refine ⟨_, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v1_eq, Cert.ReferenceIdeal.RefValue.contraction_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
